-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .f32) (main_arg1 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  main_v8
-- ==== Kernel.lean ====
abbrev S2048x4096 : Shape := ⟨2, ![2048, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .f32 = 32 ∨ (Rect.block (s := S2048x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x4096.size a
  hwx0_2 : ∀ i : grid0.Coords, EltTy.bits .f32 = 32 ∨ (Rect.block (s := S2048x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x4096.size a
  hwx0_3 : ∀ i : grid0.Coords, EltTy.bits .f32 = 32 ∨ (Rect.block (s := S2048x4096) S256x4096.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S_ : Shape := ⟨0, ![]⟩
abbrev S2048 : Shape := ⟨1, ![2048]⟩
abbrev S2048x1 : Shape := ⟨2, ![2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S_, .f32⟩
  | .hbm, ⟨3, _⟩ => ⟨S2048, .f32⟩
  | .hbm, ⟨4, _⟩ => ⟨S2048x1, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S2048x4096_S2048_d1 : S2048x4096.ReducesTo [1] S2048
  h_S_ : 0 < S_.numel
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)

variable [Facts₀]

class Facts : Prop extends Facts₀ where

variable [Facts]
-- ==== Proof.RowScaled.lean ====
/-
  The one function both programs compute.

  For two 2048 × 4096 matrices x and y over the extended reals, `rowScaled x y` has at (r, q) the entry
  x(r, q) times the sum of row r of y. The first result of either program is `rowScaled user image`, the
  second `rowScaled image user`. The two programs differ only in where the row sum is taken: the reference
  sums a row of the whole matrix, the kernel sums the same row inside a block of 256 whole rows. These are the
  same 4096 terms in the same order, so no law of arithmetic beyond 0 + s = s (the reference's sum starts from
  an explicit zero) is needed, and finiteness of the inputs is never used.
-/
import Idealize.ShloMosaic.PureOps.Ideal
import Idealize.ShloMosaic.Lib.ValueIdx

noncomputable section

namespace Cert.RowScaled

open Idealize.ShloMosaic Idealize.ShloMosaic.ValueIdx

/-- Entry (r, q) of `x`, times the sum over the 4096 entries of row r of `y`. -/
def rowScaled (x y : (⟨2, ![2048, 4096]⟩ : Shape).Idx → EReal) : (⟨2, ![2048, 4096]⟩ : Shape).Idx → EReal :=
  fun i => x i * ∑ k : Fin 4096, y (ix2 (n0 := 2048) (n1 := 4096) (i 0) k)

/-- The same function written at explicit coordinates. -/
theorem rowScaled_apply (x y : (⟨2, ![2048, 4096]⟩ : Shape).Idx → EReal) (r : Fin 2048) (q : Fin 4096) :
    rowScaled x y (ix2 r q) = x (ix2 r q) * ∑ k : Fin 4096, y (ix2 r k) := rfl

end Cert.RowScaled

end
-- ==== Proof.RefValue.lean ====
/-
  The reference's two results are `rowScaled` of its arguments.

  The reference sums each row of one matrix (a sum that starts from an explicit zero), keeps the 2048 sums as a
  column, lays that column along all 4096 columns, and multiplies entry by entry with the other matrix. Read at
  an entry (r, q) through the three layout steps, the factor is 0 + the sum over k of the summed matrix at (r, k):
  the row r is carried unchanged by each step and the column q is dropped. So the first result is
  `rowScaled arg0 arg1` and the second `rowScaled arg1 arg0`.
-/
import proofs.«421862_j9079560863791_3_alg».proof.Proof.Gen.ReferenceIdeal.Read
import proofs.«421862_j9079560863791_3_alg».proof.Proof.RowScaled
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.RowScaled

/-- The entry of the summed matrix that the first result's factor reads at `i`, term `k`: row of `i`, column `k`. -/
theorem row_index_v5 (i : S2048x4096.Idx) (k : Fin 4096) :
    idx_main_v0 (idx_main_v1 (idx_main_v4 i)) k = ix2 (n0 := 2048) (n1 := 4096) (i 0) k :=
  funext fun a => by match a with | ⟨0, _⟩ => rfl | ⟨1, _⟩ => rfl

/-- The same for the second result. -/
theorem row_index_v7 (i : S2048x4096.Idx) (k : Fin 4096) :
    idx_main_v2 (idx_main_v3 (idx_main_v6 i)) k = ix2 (n0 := 2048) (n1 := 4096) (i 0) k :=
  funext fun a => by match a with | ⟨0, _⟩ => rfl | ⟨1, _⟩ => rfl

/-- The first result: `arg0` scaled row by row by the row sums of `arg1`. -/
theorem v5_eq (x0 x1 : S2048x4096.Idx → EReal) : val_main_v5 (F := Ideal) x0 x1 = rowScaled x0 x1 := by
  funext i
  rw [val_main_v5_apply, val_main_v4_apply, val_main_v1_apply, val_main_v0_apply, val_main_cst_apply]
  show x0 i * (Ideal.ofBits .f32 0x00000000#32 + ∑ k : Fin 4096, x1 (idx_main_v0 (idx_main_v1 (idx_main_v4 i)) k))
    = x0 i * ∑ k : Fin 4096, x1 (ix2 (n0 := 2048) (n1 := 4096) (i 0) k)
  rw [Ideal.ofBits_zero_f32, zero_add]
  simp only [row_index_v5]

/-- The second result: `arg1` scaled row by row by the row sums of `arg0`. -/
theorem v7_eq (x0 x1 : S2048x4096.Idx → EReal) : val_main_v7 (F := Ideal) x0 x1 = rowScaled x1 x0 := by
  funext i
  rw [val_main_v7_apply, val_main_v6_apply, val_main_v3_apply, val_main_v2_apply, val_main_cst_0_apply]
  show x1 i * (Ideal.ofBits .f32 0x00000000#32 + ∑ k : Fin 4096, x0 (idx_main_v2 (idx_main_v3 (idx_main_v6 i)) k))
    = x1 i * ∑ k : Fin 4096, x0 (ix2 (n0 := 2048) (n1 := 4096) (i 0) k)
  rw [Ideal.ofBits_zero_f32, zero_add]
  simp only [row_index_v7]

end Cert.ReferenceIdeal.RefValue

end
-- ==== Proof.KernelValue.lean ====
/-
  The kernel's two result arrays are `rowScaled` of its arguments.

  The grid has 8 points; point t works on rows 256·t … 256·t + 255 of every matrix, all 4096 columns. At a point the
  body loads the two input blocks, sums each row of one block over its 4096 lanes, and multiplies the other block
  entry by entry by that row's sum. Because a block holds whole rows, the sum of row p of the block is the sum of row
  256·t + p of the matrix, the same 4096 terms in the same order. So what point t writes back is block t of
  `rowScaled` of the two argument matrices, and the 8 blocks tile the 2048 rows: row r lies in block r / 256.
-/
import proofs.«421862_j9079560863791_3_alg».proof.Proof.Gen.KernelIdeal.Value
import proofs.«421862_j9079560863791_3_alg».proof.Proof.RowScaled
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value
open Idealize.ShloMosaic.ValueIdx Cert.RowScaled

/-! ## One block -/

/-- The offsets of a load or store of the whole block are zero on both axes. -/
theorem origin : (![0, 0] : Fin 2 → Nat) = fun _ => 0 := funext fun a => by fin_cases a <;> rfl

/-- The lane sum of a 256 × 4096 block, read at row `j`: the sum of the 4096 entries of that row. -/
theorem laneSum_apply (x : Vec Ideal S256x4096 .f32) (j : S256.Idx) :
    multiReduction (F := Ideal) .add [1] S256 x 0x00000000#32 reduces_S256x4096_S256 (.inl rfl) rfl j
      = ∑ k : Fin 4096, x (ix2 (n0 := 256) (n1 := 4096) (j 0) k) := by
  refine (Ideal.multiReduction_add_single x 0x00000000#32 reduces_S256x4096_S256 (.inl rfl) rfl j).trans ?_
  refine Finset.sum_congr rfl fun k _ => ?_
  exact congrArg x (funext fun a => Fin.ext (by match a with | ⟨0, _⟩ => rfl | ⟨1, _⟩ => rfl))

/-- Let the two loaded blocks be two matrices `A0`, `A1` read through one index map `e` that keeps the column and
    sends equal block rows to equal matrix rows. Then the block the body leaves — the first load times the row sums
    of the second — is `rowScaled A0 A1` read through `e`: the sum over the block's row is the sum over the matrix's
    row, term by term. -/
theorem block_rowScaled (x0 x1 : Vec Ideal S256x4096 .f32) (A0 A1 : S2048x4096.Idx → EReal)
    (e : S256x4096.Idx → S2048x4096.Idx)
    (hcol : ∀ y, (e y 1).val = (y 1).val)
    (hrow : ∀ y y', (y 0).val = (y' 0).val → (e y 0).val = (e y' 0).val)
    (h0 : ∀ y, x0 y = A0 (e y)) (h1 : ∀ y, x1 y = A1 (e y)) (y : S256x4096.Idx) :
    E2 x0 x1 y = rowScaled A0 A1 (e y) := by
  show FloatOps.mulf (x0 (ix2_0 y))
      (multiReduction (F := Ideal) .add [1] S256 x1 0x00000000#32 reduces_S256x4096_S256 (.inl rfl) rfl (ix2_1 y))
    = A0 (e y) * ∑ k : Fin 4096, A1 (ix2 (n0 := 2048) (n1 := 4096) (e y 0) k)
  have ey : ix2_0 y = y := funext fun a => Fin.ext (by match a with | ⟨0, _⟩ => rfl | ⟨1, _⟩ => rfl)
  rw [ey, h0 y, laneSum_apply]
  refine congrArg (A0 (e y) * ·) (Finset.sum_congr rfl fun k _ => ?_)
  rw [h1]
  refine congrArg A1 (funext fun a => Fin.ext ?_)
  match a with
  | ⟨0, _⟩ => exact hrow _ y rfl
  | ⟨1, _⟩ => exact hcol _

/-! ## The blocks of the grid -/

/-- The printed index maps, decided over the 8 points: all four windows are at block (t, 0) at point t. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (m : (ℓ : Loc nD τ sig) → Buf (Elt Ideal) ℓ) (ρ : Dev nD → PrngReg)

/-- WHAT POINT `t` WRITES BACK to the first result: block t of `rowScaled arg0 arg1`. -/
theorem flushed2_eq (c : Dev nD) (t : Fin cfg0.N) :
    (dats m 0 c).flushed 2 t
      = ((cfg0.win 2).blk t).view.read (Elt Ideal) (rowScaled (V m c main_arg0) (V m c main_arg1)) := by
  rw [Value.flushed2]
  unfold out0_2
  simp only [View.ld_unit_zero (S := S256x4096) origin]
  obtain ⟨a0, a1, b0, b1, c0, c1, d0, d1⟩ := idx_facts t
  funext j
  show (View.canon [⟨r0_0, k0_pay1 (iblk m c 0 t) (iblk m c 1 t)⟩] : Vec Ideal S256x4096 .f32) j
    = rowScaled (V m c main_arg0) (V m c main_arg1) (((cfg0.win 2).blk t).view.emb j)
  refine (canon2_eq (iblk m c 0 t) (iblk m c 1 t) j).trans ?_
  refine block_rowScaled (iblk m c 0 t) (iblk m c 1 t) (V m c main_arg0) (V m c main_arg1)
    (fun y => ((cfg0.win 2).blk t).view.emb y) (fun y => ?_) (fun y y' hy => ?_) (fun y => ?_) (fun y => ?_) j
  · show win0_2.index t (1 : Fin 2) * 4096 + 1 * (y 1).val = (y 1).val
    omega
  · show win0_2.index t (0 : Fin 2) * 256 + 1 * (y 0).val = win0_2.index t (0 : Fin 2) * 256 + 1 * (y' 0).val
    omega
  · show V m c main_arg0 (((cfg0.win 0).blk t).view.emb y) = V m c main_arg0 (((cfg0.win 2).blk t).view.emb y)
    refine congrArg (V m c main_arg0) (funext fun a => Fin.ext ?_)
    match a with
    | ⟨0, _⟩ => show win0_0.index t (0 : Fin 2) * 256 + 1 * (y 0).val = win0_2.index t (0 : Fin 2) * 256 + 1 * (y 0).val; omega
    | ⟨1, _⟩ => show win0_0.index t (1 : Fin 2) * 4096 + 1 * (y 1).val = win0_2.index t (1 : Fin 2) * 4096 + 1 * (y 1).val; omega
  · show V m c main_arg1 (((cfg0.win 1).blk t).view.emb y) = V m c main_arg1 (((cfg0.win 2).blk t).view.emb y)
    refine congrArg (V m c main_arg1) (funext fun a => Fin.ext ?_)
    match a with
    | ⟨0, _⟩ => show win0_1.index t (0 : Fin 2) * 256 + 1 * (y 0).val = win0_2.index t (0 : Fin 2) * 256 + 1 * (y 0).val; omega
    | ⟨1, _⟩ => show win0_1.index t (1 : Fin 2) * 4096 + 1 * (y 1).val = win0_2.index t (1 : Fin 2) * 4096 + 1 * (y 1).val; omega

/-- WHAT POINT `t` WRITES BACK to the second result: block t of `rowScaled arg1 arg0` (the roles of the two loads
    exchanged: the second load is multiplied, the first is summed). -/
theorem flushed3_eq (c : Dev nD) (t : Fin cfg0.N) :
    (dats m 0 c).flushed 3 t
      = ((cfg0.win 3).blk t).view.read (Elt Ideal) (rowScaled (V m c main_arg1) (V m c main_arg0)) := by
  rw [Value.flushed3]
  unfold out0_3
  simp only [View.ld_unit_zero (S := S256x4096) origin]
  obtain ⟨a0, a1, b0, b1, c0, c1, d0, d1⟩ := idx_facts t
  funext j
  show (View.canon [⟨r0_0, k0_pay2 (iblk m c 0 t) (iblk m c 1 t)⟩] : Vec Ideal S256x4096 .f32) j
    = rowScaled (V m c main_arg1) (V m c main_arg0) (((cfg0.win 3).blk t).view.emb j)
  refine (canon3_eq (iblk m c 1 t) (iblk m c 0 t) j).trans ?_
  refine block_rowScaled (iblk m c 1 t) (iblk m c 0 t) (V m c main_arg1) (V m c main_arg0)
    (fun y => ((cfg0.win 3).blk t).view.emb y) (fun y => ?_) (fun y y' hy => ?_) (fun y => ?_) (fun y => ?_) j
  · show win0_3.index t (1 : Fin 2) * 4096 + 1 * (y 1).val = (y 1).val
    omega
  · show win0_3.index t (0 : Fin 2) * 256 + 1 * (y 0).val = win0_3.index t (0 : Fin 2) * 256 + 1 * (y' 0).val
    omega
  · show V m c main_arg1 (((cfg0.win 1).blk t).view.emb y) = V m c main_arg1 (((cfg0.win 3).blk t).view.emb y)
    refine congrArg (V m c main_arg1) (funext fun a => Fin.ext ?_)
    match a with
    | ⟨0, _⟩ => show win0_1.index t (0 : Fin 2) * 256 + 1 * (y 0).val = win0_3.index t (0 : Fin 2) * 256 + 1 * (y 0).val; omega
    | ⟨1, _⟩ => show win0_1.index t (1 : Fin 2) * 4096 + 1 * (y 1).val = win0_3.index t (1 : Fin 2) * 4096 + 1 * (y 1).val; omega
  · show V m c main_arg0 (((cfg0.win 0).blk t).view.emb y) = V m c main_arg0 (((cfg0.win 3).blk t).view.emb y)
    refine congrArg (V m c main_arg0) (funext fun a => Fin.ext ?_)
    match a with
    | ⟨0, _⟩ => show win0_0.index t (0 : Fin 2) * 256 + 1 * (y 0).val = win0_3.index t (0 : Fin 2) * 256 + 1 * (y 0).val; omega
    | ⟨1, _⟩ => show win0_0.index t (1 : Fin 2) * 4096 + 1 * (y 1).val = win0_3.index t (1 : Fin 2) * 4096 + 1 * (y 1).val; omega

/-! ## The blocks tile the arrays -/

/-- An entry of the first result is in point `t`'s block iff each coordinate is in the block's range on its axis. -/
theorem mem_blk2 (t : Fin cfg0.N) (i : S2048x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v0_0).slice (win0_2.rect t)).set ↔ _
  rw [View.set_slice_whole, Rect.mem_set_unit]
  exact Iff.rfl

/-- The same for the second result. -/
theorem mem_blk3 (t : Fin cfg0.N) (i : S2048x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v0_1).slice (win0_3.rect t)).set ↔ _
  rw [View.set_slice_whole, Rect.mem_set_unit]
  exact Iff.rfl

/-- Row r of the first result lies in the block of point r / 256, and every point writes back. -/
theorem cover2 (i : S2048x4096.Idx) :
    ∃ t : Fin cfg0.N, (cfg0.win 2).flush t = true ∧ i ∈ ((cfg0.win 2).blk t).view.set := by
  have hi0 : (i 0).val < 2048 := (i 0).isLt
  have hi1 : (i 1).val < 4096 := (i 1).isLt
  have hN : cfg0.N = 8 := N_0
  have ht : (i 0).val / 256 < cfg0.N := by rw [hN]; omega
  obtain ⟨a0, a1, b0, b1, c0, c1, d0, d1⟩ := idx_facts ⟨(i 0).val / 256, ht⟩
  refine ⟨⟨(i 0).val / 256, ht⟩, flush0_2 _, ?_⟩
  rw [mem_blk2]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [c0]; show (i 0).val / 256 * 256 ≤ (i 0).val ∧ (i 0).val < (i 0).val / 256 * 256 + 256; omega
  | ⟨1, _⟩ =>
    show win0_2.index ⟨(i 0).val / 256, ht⟩ (1 : Fin 2) * 4096 ≤ (i 1).val
      ∧ (i 1).val < win0_2.index ⟨(i 0).val / 256, ht⟩ (1 : Fin 2) * 4096 + 4096
    rw [c1]; omega

/-- The same for the second result. -/
theorem cover3 (i : S2048x4096.Idx) :
    ∃ t : Fin cfg0.N, (cfg0.win 3).flush t = true ∧ i ∈ ((cfg0.win 3).blk t).view.set := by
  have hi0 : (i 0).val < 2048 := (i 0).isLt
  have hi1 : (i 1).val < 4096 := (i 1).isLt
  have hN : cfg0.N = 8 := N_0
  have ht : (i 0).val / 256 < cfg0.N := by rw [hN]; omega
  obtain ⟨a0, a1, b0, b1, c0, c1, d0, d1⟩ := idx_facts ⟨(i 0).val / 256, ht⟩
  refine ⟨⟨(i 0).val / 256, ht⟩, flush0_3 _, ?_⟩
  rw [mem_blk3]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [d0]; show (i 0).val / 256 * 256 ≤ (i 0).val ∧ (i 0).val < (i 0).val / 256 * 256 + 256; omega
  | ⟨1, _⟩ =>
    show win0_3.index ⟨(i 0).val / 256, ht⟩ (1 : Fin 2) * 4096 ≤ (i 1).val
      ∧ (i 1).val < win0_3.index ⟨(i 0).val / 256, ht⟩ (1 : Fin 2) * 4096 + 4096
    rw [d1]; omega

/-! ## The arrays after the run -/

/-- The first result array ends holding `rowScaled arg0 arg1`. -/
theorem final2 (c : Dev nD) :
    (dats m 0 c).arrAt 2 cfg0.N = rowScaled (m ((c : Thread nD τ).loc main_arg0)) (m ((c : Thread nD τ).loc main_arg1)) :=
  (dats m 0 c).arrAt_eq_of_cover 2 (rowScaled (V m c main_arg0) (V m c main_arg1)) (fun t _ => flushed2_eq m c t) cover2

/-- The second result array ends holding `rowScaled arg1 arg0`. -/
theorem final3 (c : Dev nD) :
    (dats m 0 c).arrAt 3 cfg0.N = rowScaled (m ((c : Thread nD τ).loc main_arg1)) (m ((c : Thread nD τ).loc main_arg0)) :=
  (dats m 0 c).arrAt_eq_of_cover 3 (rowScaled (V m c main_arg1) (V m c main_arg0)) (fun t _ => flushed3_eq m c t) cover3

/-- The run, read: each result array at its function of the arguments, the arguments unchanged. -/
theorem run : θ_run defs (onTc (τ := τ) (main (F := Ideal))) ⟨m, fun _ => 0, ρ⟩ fun r => ∀ c : Dev nD,
      r.2.mem ((c : Thread nD τ).loc main_v0_0)
        = rowScaled (m ((c : Thread nD τ).loc main_arg0)) (m ((c : Thread nD τ).loc main_arg1))
      ∧ r.2.mem ((c : Thread nD τ).loc main_v0_1)
        = rowScaled (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩)
    (Value.run_blocks m ρ)

end Cert.KernelIdeal.Hand

end
-- ==== Proof.lean ====
/-
  Two 2048 × 4096 matrices, `user` and `image`. Both programs return
    out_user(r, q) = user(r, q) · Σ_k image(r, k)   and   out_image(r, q) = image(r, q) · Σ_k user(r, k),
  the function `rowScaled` (Proof/RowScaled.lean) at (user, image) and at (image, user).

  The reference computes it on the whole matrices: a row sum started from zero, kept as a column, laid along
  the columns, an entrywise product (Proof/RefValue.lean, over the generated run of the reference read one
  operation at a time). The kernel computes it 256 rows at a time on a grid of 8 points, each block holding the
  full width of 4096, so that a row's sum inside its block is the row's sum in the matrix, the same terms in the
  same order; the 8 blocks tile the rows (Proof/KernelValue.lean, over the generated frame run and the generated
  reading of the block the body leaves). The two sides are therefore the same extended-real expression up to
  0 + s = s, and the precondition (finite inputs) is not used.

  The frames of the two kernel programs are the generated ones; the reference's frame is its generated run with
  the results dropped. The idealization rewrote nothing, so `preserves` is `True`.
-/
import proofs.«421862_j9079560863791_3_alg».proof.Defs
import proofs.«421862_j9079560863791_3_alg».proof.Proof.Gen.Kernel
import proofs.«421862_j9079560863791_3_alg».proof.Proof.Gen.Kernel.Skeleton
import proofs.«421862_j9079560863791_3_alg».proof.Proof.Gen.Kernel.Launch
import proofs.«421862_j9079560863791_3_alg».proof.Proof.Gen.Kernel.Points
import proofs.«421862_j9079560863791_3_alg».proof.Proof.Gen.Kernel.Frame
import proofs.«421862_j9079560863791_3_alg».proof.Proof.Gen.KernelIdeal
import proofs.«421862_j9079560863791_3_alg».proof.Proof.Gen.KernelIdeal.Skeleton
import proofs.«421862_j9079560863791_3_alg».proof.Proof.Gen.KernelIdeal.Launch
import proofs.«421862_j9079560863791_3_alg».proof.Proof.Gen.KernelIdeal.Points
import proofs.«421862_j9079560863791_3_alg».proof.Proof.Gen.KernelIdeal.Frame
import proofs.«421862_j9079560863791_3_alg».proof.Proof.Gen.ReferenceIdeal
import proofs.«421862_j9079560863791_3_alg».proof.Proof.Gen.Pre_finite_inputs
import proofs.«421862_j9079560863791_3_alg».proof.Proof.Gen.KernelIdeal.Value
import proofs.«421862_j9079560863791_3_alg».proof.Proof.Gen.ReferenceIdeal.Run
import proofs.«421862_j9079560863791_3_alg».proof.Proof.Gen.ReferenceIdeal.Read
import proofs.«421862_j9079560863791_3_alg».proof.Proof.RowScaled
import proofs.«421862_j9079560863791_3_alg».proof.Proof.RefValue
import proofs.«421862_j9079560863791_3_alg».proof.Proof.KernelValue
import Idealize.ShloMosaic.Adequacy
import Idealize.ShloMosaic.Init

noncomputable section

namespace Cert.Proof

open Idealize.ShloMosaic Idealize.ShloMosaic.TcCoe Idealize.SL.Sem Cert.RowScaled

/-- The word-level kernel runs and leaves its arguments as they were: the generated frame. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- The reference runs and leaves its arguments as they were: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten on the way to the idealized kernel. -/
theorem preserves : Cert.preserves_Kernel_KernelIdeal := trivial

/-- From memories that agree on the two arguments, the kernel's results and the reference's results are both
    `rowScaled user image` and `rowScaled image user`. -/
theorem algebraic : Cert.algebraic_KernelIdeal_ReferenceIdeal := by
  intro m ρ m' ρ' _ hagree
  refine ⟨fun c => rowScaled (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => rowScaled (m ((c : Thread Cert.KernelIdeal.nD Cert.KernelIdeal.τ).loc Cert.KernelIdeal.main_arg1))
      (m ((c : Thread Cert.KernelIdeal.nD Cert.KernelIdeal.τ).loc Cert.KernelIdeal.main_arg0)),
    Cert.KernelIdeal.Hand.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [(hagree c).1, (hagree c).2]
    exact (Cert.ReferenceIdeal.Read.val_main_v5_eq _ _).trans (Cert.ReferenceIdeal.RefValue.v5_eq _ _)
  · rw [(hagree c).1, (hagree c).2]
    exact (Cert.ReferenceIdeal.Read.val_main_v7_eq _ _).trans (Cert.ReferenceIdeal.RefValue.v7_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
